-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Spec.lean ====
/-
  The function both programs compute: every row of an 8192 × 4096 array scaled and shifted, column by column, by two
  vectors of 4096 entries,
      out[r, j] = x[r, j] * w[j] + b[j].
  It is stated at any float instance: the two programs form the same product and the same sum at every entry, so no law of
  arithmetic (and no finiteness of the inputs) is needed to join them.
-/
import Idealize.ShloMosaic.PureOps
import Idealize.ShloMosaic.Lib.ValueIdx

noncomputable section

namespace Cert.RowAffine

open Idealize.ShloMosaic

/-- The array's shape and the two vectors' shape. -/
abbrev Mat : Shape := ⟨2, ![8192, 4096]⟩
abbrev Row : Shape := ⟨1, ![4096]⟩

variable {F : FTy → Type} [FloatOps F]

/-- The column of an entry of the array, as an index of the vectors. -/
abbrev colOf (i : Mat.Idx) : Row.Idx := ValueIdx.ix1 (⟨(i 1).val, (i 1).isLt⟩ : Fin 4096)

/-- `out[r, j] = x[r, j] * w[j] + b[j]`. -/
def scaleShift (x : Vec F Mat .f32) (w b : Vec F Row .f32) : Vec F Mat .f32 :=
  fun i => FloatOps.addf (FloatOps.mulf (x i) (w (colOf i))) (b (colOf i))

theorem scaleShift_apply (x : Vec F Mat .f32) (w b : Vec F Row .f32) (i : Mat.Idx) :
    scaleShift x w b i = FloatOps.addf (FloatOps.mulf (x i) (w (colOf i))) (b (colOf i)) := rfl

end Cert.RowAffine

end
-- ==== Proof.RefValue.lean ====
/-
  The reference's result is the row-wise scale and shift: it lays each vector out as one row (a broadcast along
  axis 1 to 1 × 4096), repeats the row down the 8192 rows (a broadcast along axes 0, 1), multiplies and adds. Read at an
  entry (r, j), each of the two repeated rows is the vector at j.
-/
import proofs.«423905_j37211596652828_3_alg».proof.Proof.Gen.ReferenceIdeal.Read
import proofs.«423905_j37211596652828_3_alg».proof.Proof.Spec

noncomputable section

namespace Cert.ReferenceIdeal.RefValue

open Cert.ReferenceIdeal Cert.ReferenceIdeal.Read Cert.RowAffine Idealize.ShloMosaic

variable {F : FTy → Type} [FloatOps F]

/-- Through the two broadcasts of the scale vector, entry (r, j) reads the vector at j. -/
theorem scale_col (i : S8192x4096.Idx) : idx_main_v0 (idx_main_v1 i) = colOf i :=
  funext fun a => match a with | ⟨0, _⟩ => rfl

/-- Through the two broadcasts of the shift vector, entry (r, j) reads the vector at j. -/
theorem shift_col (i : S8192x4096.Idx) : idx_main_v3 (idx_main_v4 i) = colOf i :=
  funext fun a => match a with | ⟨0, _⟩ => rfl

/-- The reference's last stage is `scaleShift` of its three arguments. -/
theorem result_eq (x : (⟨S8192x4096, .f32⟩ : BufTy).Contents (Elt F)) (w b : (⟨S4096, .f32⟩ : BufTy).Contents (Elt F)) :
    val_main_v5 (F := F) x w b = scaleShift (F := F) x w b := by
  funext i
  rw [val_main_v5_apply, val_main_v2_apply, val_main_v1_apply, val_main_v0_apply, val_main_v4_apply, val_main_v3_apply,
    scale_col, shift_col]
  rfl

end Cert.ReferenceIdeal.RefValue

end
-- ==== Proof.KernelValue.lean ====
/-
  The kernel's result array. The grid has 16 points; point t stages rows 512 t … 512 t + 511 of the array (all 4096
  columns) and, whole, the two vectors recast as single rows of 4096, and writes back the same rows of the result. At a
  block entry (p, j) the body leaves the staged entry times the scale row at j plus the shift row at j; the staged entry
  is the array's at row 512 t + p, and the two single rows are the vectors themselves. So each point writes its rows of
  the row-wise scale and shift of the arguments, and the 16 blocks of rows cover the result.
-/
import proofs.«423905_j37211596652828_3_alg».proof.Proof.Gen.KernelIdeal.Value
import proofs.«423905_j37211596652828_3_alg».proof.Proof.Spec
import Idealize.ShloMosaic.Lib.Pipeline.Value
import Idealize.ShloMosaic.Lib.ValueLayout
import Idealize.ShloMosaic.Lib.StableHlo.Run

noncomputable section

namespace Cert.KernelIdeal.RowBlocks

open Cert.KernelIdeal Cert.KernelIdeal.Gen Cert.RowAffine
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem zero_off : (![0, 0] : Fin 2 → Nat) = fun _ => 0 := funext fun a => by fin_cases a <;> rfl

/-! ## The body at an entry of its block -/

/-- What the body leaves at block entry (p, j): the staged rows' entry there, times the staged scale row at j, plus the
    staged shift row at j. -/
theorem body_apply (x0 : Vec F S512x4096 .f32) (x1 x2 : Vec F S1x4096 .f32) (y : S512x4096.Idx) :
    out0_3 x0 x1 x2 y = FloatOps.addf (FloatOps.mulf (x0 y) (x1 (Value.ix3_1 y))) (x2 (Value.ix3_2 y)) := by
  unfold out0_3
  rw [Value.canon3_eq]
  have e : Value.ix3_0 y = y := funext fun a => match a with | ⟨0, _⟩ => rfl | ⟨1, _⟩ => rfl
  show FloatOps.addf (FloatOps.mulf (View.ld x0 r0_1 (Value.ix3_0 y)) (View.ld x1 r0_0 (Value.ix3_1 y))) (View.ld x2 r0_0 (Value.ix3_2 y)) = _
  have l0 : View.ld x0 r0_1 = x0 := View.ld_unit_zero (S := S512x4096) zero_off _ x0
  have l1 : View.ld x1 r0_0 = x1 := View.ld_unit_zero (S := S1x4096) zero_off _ x1
  have l2 : View.ld x2 r0_0 = x2 := View.ld_unit_zero (S := S1x4096) zero_off _ x2
  rw [l0, l1, l2, e]

/-! ## The two vectors as the region finds them: recast as single rows -/

theorem scaleRow_eq (c : Dev nD) :
    (V m c main_v0 : S1x4096.Idx → Elt F .f32) = shapeCast S1x4096 (m ((c : Thread nD τ).loc main_arg1)) shapeCasts_S4096_S1x4096 := by
  dsimp only [V, hostOps0]; after_results; rfl

theorem shiftRow_eq (c : Dev nD) :
    (V m c main_v1 : S1x4096.Idx → Elt F .f32) = shapeCast S1x4096 (m ((c : Thread nD τ).loc main_arg2)) shapeCasts_S4096_S1x4096 := by
  dsimp only [V, hostOps0]; after_results; rfl

/-! ## The index maps over the grid -/

theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

theorem idx_onto : ∀ q : Fin 16, ∃ t : Fin cfg0.N, win0_3.index t = ![q.val, 0] :=
  (by decide +kernel : ∀ q : Fin 16, ∃ t : Fin grid0.N, win0_3.index t = ![q.val, 0])

/-! ## What a point writes back -/

theorem flushed_eq (c : Dev nD) (t : Fin cfg0.N) :
    (dats m 0 c).flushed 3 t = ((cfg0.win 3).blk t).view.read (Elt F)
      (scaleShift (F := F) (V m c main_arg0) (m ((c : Thread nD τ).loc main_arg1)) (m ((c : Thread nD τ).loc main_arg2))) := by
  rw [Value.flushed3]
  obtain ⟨e0, e1, e2, e3, e4, e5, e6, -⟩ := idx_facts t
  funext j
  show out0_3 (iblk m c 0 t) (iblk m c 1 t) (iblk m c 2 t) j = scaleShift (V m c main_arg0) _ _ (((cfg0.win 3).blk t).view.emb j)
  refine (body_apply (F := F) (iblk m c 0 t) (iblk m c 1 t) (iblk m c 2 t) j).trans ?_
  rw [scaleShift_apply]
  have hx : (iblk m c 0 t : Vec F S512x4096 .f32) j = V m c main_arg0 (((cfg0.win 3).blk t).view.emb j) := by
    show V m c main_arg0 (((cfg0.win 0).blk t).view.emb j) = _
    refine congrArg (V m c main_arg0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * (j 1).val = win0_3.index t (1 : Fin 2) * 4096 + 1 * (j 1).val; omega
  have hw : (iblk m c 1 t : Vec F S1x4096 .f32) (Value.ix3_1 j) = m ((c : Thread nD τ).loc main_arg1) (colOf (((cfg0.win 3).blk t).view.emb j)) := by
    show V m c main_v0 (((cfg0.win 1).blk t).view.emb (Value.ix3_1 j)) = _
    refine (congrFun (scaleRow_eq m c) _).trans ?_
    refine shapeCast_apply _ _ _ (colOf (((cfg0.win 3).blk t).view.emb j)) ?_
    rw [Shape.rowMajor_val_one, Shape.rowMajor_val_two]
    show win0_3.index t (1 : Fin 2) * 4096 + 1 * (j 1).val
      = (win0_1.index t (0 : Fin 2) * 1 + 1 * 0) * 4096 + (win0_1.index t (1 : Fin 2) * 4096 + 1 * (j 1).val)
    omega
  have hb : (iblk m c 2 t : Vec F S1x4096 .f32) (Value.ix3_2 j) = m ((c : Thread nD τ).loc main_arg2) (colOf (((cfg0.win 3).blk t).view.emb j)) := by
    show V m c main_v1 (((cfg0.win 2).blk t).view.emb (Value.ix3_2 j)) = _
    refine (congrFun (shiftRow_eq m c) _).trans ?_
    refine shapeCast_apply _ _ _ (colOf (((cfg0.win 3).blk t).view.emb j)) ?_
    rw [Shape.rowMajor_val_one, Shape.rowMajor_val_two]
    show win0_3.index t (1 : Fin 2) * 4096 + 1 * (j 1).val
      = (win0_2.index t (0 : Fin 2) * 1 + 1 * 0) * 4096 + (win0_2.index t (1 : Fin 2) * 4096 + 1 * (j 1).val)
    omega
  rw [hx, hw, hb]

/-! ## The sixteen blocks of rows cover the result -/

/-- An entry lies in point t's block iff, on each axis, its coordinate lies in the block's range: 512 rows from row
    512 times the block's row index, and all 4096 columns. -/
theorem mem_rows (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Row r belongs to the block whose row index is r / 512, and some point writes that block back. -/
theorem rows_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_rows]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- The result array after the run is the row-wise scale and shift of the three arguments as launched. -/
theorem final (c : Dev nD) :
    (dats m 0 c).arrAt 3 cfg0.N = scaleShift (F := F) (m ((c : Thread nD τ).loc main_arg0))
      (m ((c : Thread nD τ).loc main_arg1)) (m ((c : Thread nD τ).loc main_arg2)) :=
  ((dats m 0 c).arrAt_eq_of_cover 3 _ (fun t _ => flushed_eq m c t) rows_cover).trans (by rw [V_main_arg0])

/-! ## The run -/

/-- Every weakly fair execution of the kernel's program ends with the result array at the row-wise scale and shift of
    the arguments, the arguments unchanged. -/
theorem run : θ_run defs (onTc (τ := τ) (main (F := F))) ⟨m, fun _ => 0, ρ⟩ fun r => ∀ c : Dev nD,
      r.2.mem ((c : Thread nD τ).loc main_v2) = scaleShift (F := F) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RowBlocks

end
-- ==== Proof.lean ====
/-
  The kernel scales and shifts every row of an 8192 × 4096 array column by column, out[r, j] = x[r, j] * w[j] + b[j],
  sixteen blocks of 512 rows at a time, with the two vectors recast as single rows and repeated down each block; the
  reference repeats each vector down all 8192 rows, multiplies and adds. Both result arrays are the one function
  `RowAffine.scaleShift` of the arguments, entry by entry: the same product and the same sum, so the equality needs no law
  of arithmetic and the finiteness of the inputs is never used. The ideal pass rewrote nothing, so the idealization
  claim is trivial. The three programs' runs (termination, no fault, arguments unchanged) are the generated frames and the
  reference's generated run.
-/
import proofs.«423905_j37211596652828_3_alg».proof.Defs
import proofs.«423905_j37211596652828_3_alg».proof.Proof.Gen.Kernel
import proofs.«423905_j37211596652828_3_alg».proof.Proof.Gen.Kernel.Skeleton
import proofs.«423905_j37211596652828_3_alg».proof.Proof.Gen.Kernel.Launch
import proofs.«423905_j37211596652828_3_alg».proof.Proof.Gen.Kernel.Points
import proofs.«423905_j37211596652828_3_alg».proof.Proof.Gen.Kernel.Frame
import proofs.«423905_j37211596652828_3_alg».proof.Proof.Gen.KernelIdeal
import proofs.«423905_j37211596652828_3_alg».proof.Proof.Gen.KernelIdeal.Skeleton
import proofs.«423905_j37211596652828_3_alg».proof.Proof.Gen.KernelIdeal.Launch
import proofs.«423905_j37211596652828_3_alg».proof.Proof.Gen.KernelIdeal.Points
import proofs.«423905_j37211596652828_3_alg».proof.Proof.Gen.KernelIdeal.Frame
import proofs.«423905_j37211596652828_3_alg».proof.Proof.Gen.ReferenceIdeal
import proofs.«423905_j37211596652828_3_alg».proof.Proof.Gen.Pre_finite_inputs
import proofs.«423905_j37211596652828_3_alg».proof.Proof.Gen.KernelIdeal.Value
import proofs.«423905_j37211596652828_3_alg».proof.Proof.Gen.ReferenceIdeal.Run
import proofs.«423905_j37211596652828_3_alg».proof.Proof.Gen.ReferenceIdeal.Read
import proofs.«423905_j37211596652828_3_alg».proof.Proof.Spec
import proofs.«423905_j37211596652828_3_alg».proof.Proof.RefValue
import proofs.«423905_j37211596652828_3_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments, the kernel's result array and the reference's are both the row-wise
    scale and shift of those arguments. -/
theorem algebraic : Cert.algebraic_KernelIdeal_ReferenceIdeal := by
  intro m ρ m' ρ' _ hagree
  refine ⟨fun c => Cert.RowAffine.scaleShift (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RowBlocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
